-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x10 : Shape := ⟨2, ![200000, 10]⟩
abbrev S10x10 : Shape := ⟨2, ![10, 10]⟩
abbrev S12800000 : Shape := ⟨1, ![12800000]⟩
abbrev S_ : Shape := ⟨0, ![]⟩

class Facts : Prop where
  bcast_S_S200000x10 : S_.BroadcastsInDim S200000x10 (![] : Fin 0 → Fin S200000x10.rank)
  reducesTo_S200000x10_S_d0_1 : S200000x10.ReducesTo [0, 1] S_
  h_S_ : 0 < S_.numel
  bcast_S_S10x10 : S_.BroadcastsInDim S10x10 (![] : Fin 0 → Fin S10x10.rank)
  reducesTo_S10x10_S_d0_1 : S10x10.ReducesTo [0, 1] S_

variable [Facts]

def fn {F : FTy → Type} [FloatOps F] (main_arg0 : FVec F S200000x10 .f32) (main_arg1 : FVec F S10x10 .f32) (main_arg2 : FVec F S10x10 .f32) (main_arg3 : IVec S12800000 32) (main_arg4 : IVec S12800000 32) : IVec S_ 1 :=
  let main_v0 : FVec F S200000x10 .f32 := Host.absf main_arg0
  let main_cst : FVec F S_ .f32 := constant S_ .f32 0x7F800000#32
  let main_v1 : FVec F S200000x10 .f32 := broadcastInDim S200000x10 ![] bcast_S_S200000x10 main_cst
  let main_v2 : IVec S200000x10 1 := cmpf .olt main_v0 main_v1
  let main_c : IVec S_ 1 := constantI S_ 1 1#1
  let main_v3 : IVec S_ 1 := (fun x v => Host.reduce IntOp.andi x v reducesTo_S200000x10_S_d0_1 h_S_) main_v2 main_c
  let main_v4 : FVec F S10x10 .f32 := Host.absf main_arg1
  let main_cst_0 : FVec F S_ .f32 := constant S_ .f32 0x7F800000#32
  let main_v5 : FVec F S10x10 .f32 := broadcastInDim S10x10 ![] bcast_S_S10x10 main_cst_0
  let main_v6 : IVec S10x10 1 := cmpf .olt main_v4 main_v5
  let main_c_1 : IVec S_ 1 := constantI S_ 1 1#1
  let main_v7 : IVec S_ 1 := (fun x v => Host.reduce IntOp.andi x v reducesTo_S10x10_S_d0_1 h_S_) main_v6 main_c_1
  let main_v8 : IVec S_ 1 := andi main_v3 main_v7
  let main_v9 : FVec F S10x10 .f32 := Host.absf main_arg2
  let main_cst_2 : FVec F S_ .f32 := constant S_ .f32 0x7F800000#32
  let main_v10 : FVec F S10x10 .f32 := broadcastInDim S10x10 ![] bcast_S_S10x10 main_cst_2
  let main_v11 : IVec S10x10 1 := cmpf .olt main_v9 main_v10
  let main_c_3 : IVec S_ 1 := constantI S_ 1 1#1
  let main_v12 : IVec S_ 1 := (fun x v => Host.reduce IntOp.andi x v reducesTo_S10x10_S_d0_1 h_S_) main_v11 main_c_3
  let main_v13 : IVec S_ 1 := andi main_v8 main_v12
  main_v13
-- ==== Kernel.lean ====
abbrev S200000x10 : Shape := ⟨2, ![200000, 10]⟩
abbrev S10x10 : Shape := ⟨2, ![10, 10]⟩
abbrev S12800000 : Shape := ⟨1, ![12800000]⟩
abbrev S_ : Shape := ⟨0, ![]⟩
abbrev S12800000x1 : Shape := ⟨2, ![12800000, 1]⟩
abbrev S12800000x10 : Shape := ⟨2, ![12800000, 10]⟩
abbrev S200000 : Shape := ⟨1, ![200000]⟩
abbrev S200000x1 : Shape := ⟨2, ![200000, 1]⟩
abbrev S8000x10 : Shape := ⟨2, ![8000, 10]⟩
abbrev S8000x1 : Shape := ⟨2, ![8000, 1]⟩

abbrev nBuf : Space → Nat
  | .hbm => 26
  | .vmem => 8
  | .smem => 0
  | _ => 0

abbrev bufTy : (tb : Table) → Fin (tcTables nBuf tb) → BufTy
  | .hbm, ⟨0, _⟩ => ⟨S200000x10, .f32⟩
  | .hbm, ⟨1, _⟩ => ⟨S10x10, .f32⟩
  | .hbm, ⟨2, _⟩ => ⟨S10x10, .f32⟩
  | .hbm, ⟨3, _⟩ => ⟨S12800000, .i32⟩
  | .hbm, ⟨4, _⟩ => ⟨S12800000, .i32⟩
  | .hbm, ⟨5, _⟩ => ⟨S_, .i32⟩
  | .hbm, ⟨6, _⟩ => ⟨S12800000, .i32⟩
  | .hbm, ⟨7, _⟩ => ⟨S12800000, .i1⟩
  | .hbm, ⟨8, _⟩ => ⟨S_, .i32⟩
  | .hbm, ⟨9, _⟩ => ⟨S12800000, .i32⟩
  | .hbm, ⟨10, _⟩ => ⟨S12800000, .i32⟩
  | .hbm, ⟨11, _⟩ => ⟨S12800000, .i32⟩
  | .hbm, ⟨12, _⟩ => ⟨S12800000x1, .i32⟩
  | .hbm, ⟨13, _⟩ => ⟨S12800000x10, .f32⟩
  | .hbm, ⟨14, _⟩ => ⟨S_, .f32⟩
  | .hbm, ⟨15, _⟩ => ⟨S200000x10, .f32⟩
  | .hbm, ⟨16, _⟩ => ⟨S12800000x1, .i32⟩
  | .hbm, ⟨17, _⟩ => ⟨S200000x10, .f32⟩
  | .hbm, ⟨18, _⟩ => ⟨S_, .f32⟩
  | .hbm, ⟨19, _⟩ => ⟨S12800000, .f32⟩
  | .hbm, ⟨20, _⟩ => ⟨S_, .f32⟩
  | .hbm, ⟨21, _⟩ => ⟨S200000, .f32⟩
  | .hbm, ⟨22, _⟩ => ⟨S12800000x1, .i32⟩
  | .hbm, ⟨23, _⟩ => ⟨S200000, .f32⟩
  | .hbm, ⟨24, _⟩ => ⟨S200000x1, .f32⟩
  | .hbm, ⟨25, _⟩ => ⟨S200000x10, .f32⟩
  | .local _ .vmem, ⟨0, _⟩ => ⟨S8000x10, .f32⟩
  | .local _ .vmem, ⟨1, _⟩ => ⟨S8000x10, .f32⟩
  | .local _ .vmem, ⟨2, _⟩ => ⟨S8000x1, .f32⟩
  | .local _ .vmem, ⟨3, _⟩ => ⟨S8000x1, .f32⟩
  | .local _ .vmem, ⟨4, _⟩ => ⟨S10x10, .f32⟩
  | .local _ .vmem, ⟨5, _⟩ => ⟨S10x10, .f32⟩
  | .local _ .vmem, ⟨6, _⟩ => ⟨S8000x10, .f32⟩
  | .local _ .vmem, ⟨7, _⟩ => ⟨S8000x10, .f32⟩
  | _, _ => ⟨S200000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S12800000 : S_.BroadcastsInDim S12800000 (![] : Fin 0 → Fin S12800000.rank)
  bcast_S12800000_S12800000x1_0 : S12800000.BroadcastsInDim S12800000x1 (![0] : Fin 1 → Fin S12800000x1.rank)
  bcast_S_S200000x10 : S_.BroadcastsInDim S200000x10 (![] : Fin 0 → Fin S200000x10.rank)
  bcast_S_S200000 : S_.BroadcastsInDim S200000 (![] : Fin 0 → Fin S200000.rank)
  shapeCasts_S200000_S200000x1 : S200000.ShapeCasts S200000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S8000x10_S8000x10_0_0 : ∀ a, (![0, 0] : Fin 2 → Nat) a + S8000x10.size a ≤ S8000x10.size a
  h_S8000x10 : 0 < S8000x10.numel
  shapeCasts_S8000x10_S8000x10 : S8000x10.ShapeCasts S8000x10
  broadcasts_S8000x1_S8000x10 : S8000x1.Broadcasts S8000x10
  bitsLt_bf16_f32 : FTy.bits .bf16 < FTy.bits .f32
  inb_S10x10_S10x10_0_0 : ∀ a, (![0, 0] : Fin 2 → Nat) a + S10x10.size a ≤ S10x10.size a
  h_S10x10 : 0 < S10x10.numel
  transposes_S10x10_p1_0_S10x10 : S10x10.Transposes [1, 0] S10x10
  gather_S200000x10_S12800000x1_S12800000x10_1_0_n_n_0_1_110_wf : GatherDims.WF S200000x10 S12800000x1 S12800000x10 [1] [0] [] [0] [] 1 ![1, 10]
  scatter_S200000x10_S12800000x1_S12800000x10_1_0_0_1_wf : ScatterDims.WF S200000x10 S12800000x1 S12800000x10 [1] [0] [0] 1
  scatter_S200000_S12800000x1_S12800000_n_0_0_1_wf : ScatterDims.WF S200000 S12800000x1 S12800000 [] [0] [0] 1
  dot_S8000x10_S10x10_S8000x10_1_0_0_1_n_n_wf : DotDims.WF S8000x10 S10x10 S8000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x10.size a ≤ S200000x10.size a
  hwx0_0 : ∀ i : grid0.Coords, EltTy.bits .f32 = 32 ∨ (Rect.block (s := S200000x10) S8000x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S200000x1.size a
  hwx0_1 : ∀ i : grid0.Coords, EltTy.bits .f32 = 32 ∨ (Rect.block (s := S200000x1) S8000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x10.size a ≤ S10x10.size a
  hwx0_2 : ∀ i : grid0.Coords, EltTy.bits .f32 = 32 ∨ (Rect.block (s := S10x10) S10x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x10.size a ≤ S10x10.size a
  hwx0_3 : ∀ i : grid0.Coords, EltTy.bits .f32 = 32 ∨ (Rect.block (s := S10x10) S10x10.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x10.size a ≤ S200000x10.size a
  hwx0_4 : ∀ i : grid0.Coords, EltTy.bits .f32 = 32 ∨ (Rect.block (s := S200000x10) S8000x10.size (cc0_transform_4 i) (hinb0_4 i)).WholeWords (EltTy.packing .f32)

variable [Facts₀]

def gather_S200000x10_S12800000x1_S12800000x10_1_0_n_n_0_1_110 : GatherDims S200000x10 S12800000x1 S12800000x10 where
  offsetDims := [1]
  collapsedSliceDims := [0]
  operandBatchingDims := []
  startIndicesBatchingDims := []
  startIndexMap := [0]
  indexVectorDim := 1
  sliceSizes := ![1, 10]
  wf := gather_S200000x10_S12800000x1_S12800000x10_1_0_n_n_0_1_110_wf
def scatter_S200000x10_S12800000x1_S12800000x10_1_0_0_1 : ScatterDims S200000x10 S12800000x1 S12800000x10 where
  updateWindowDims := [1]
  insertedWindowDims := [0]
  scatterDimsToOperandDims := [0]
  indexVectorDim := 1
  wf := scatter_S200000x10_S12800000x1_S12800000x10_1_0_0_1_wf
def scatter_S200000_S12800000x1_S12800000_n_0_0_1 : ScatterDims S200000 S12800000x1 S12800000 where
  updateWindowDims := []
  insertedWindowDims := [0]
  scatterDimsToOperandDims := [0]
  indexVectorDim := 1
  wf := scatter_S200000_S12800000x1_S12800000_n_0_0_1_wf
def dot_S8000x10_S10x10_S8000x10_1_0_0_1_n_n : DotDims S8000x10 S10x10 S8000x10 where
  lhsContracting := [1]
  rhsContracting := [0]
  lhsNonContracting := [0]
  rhsNonContracting := [1]
  lhsBatch := []
  rhsBatch := []
  wf := dot_S8000x10_S10x10_S8000x10_1_0_0_1_n_n_wf

abbrev win0_0 : Pipeline.Window sig grid0 :=
  Pipeline.Window.ofSpec (Memref.whole main_v9) S8000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S10x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S10x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S8000x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S200000x10 : Shape := ⟨2, ![200000, 10]⟩
abbrev S10x10 : Shape := ⟨2, ![10, 10]⟩
abbrev S12800000 : Shape := ⟨1, ![12800000]⟩
abbrev S_ : Shape := ⟨0, ![]⟩
abbrev S12800000x1 : Shape := ⟨2, ![12800000, 1]⟩
abbrev S12800000x10 : Shape := ⟨2, ![12800000, 10]⟩
abbrev S200000 : Shape := ⟨1, ![200000]⟩
abbrev S200000x1 : Shape := ⟨2, ![200000, 1]⟩

abbrev nBuf : Space → Nat
  | .hbm => 38
  | .vmem => 0
  | .smem => 0
  | _ => 0

abbrev bufTy : (tb : Table) → Fin (tcTables nBuf tb) → BufTy
  | .hbm, ⟨0, _⟩ => ⟨S200000x10, .f32⟩
  | .hbm, ⟨1, _⟩ => ⟨S10x10, .f32⟩
  | .hbm, ⟨2, _⟩ => ⟨S10x10, .f32⟩
  | .hbm, ⟨3, _⟩ => ⟨S12800000, .i32⟩
  | .hbm, ⟨4, _⟩ => ⟨S12800000, .i32⟩
  | .hbm, ⟨5, _⟩ => ⟨S_, .i32⟩
  | .hbm, ⟨6, _⟩ => ⟨S12800000, .i32⟩
  | .hbm, ⟨7, _⟩ => ⟨S12800000, .i1⟩
  | .hbm, ⟨8, _⟩ => ⟨S_, .i32⟩
  | .hbm, ⟨9, _⟩ => ⟨S12800000, .i32⟩
  | .hbm, ⟨10, _⟩ => ⟨S12800000, .i32⟩
  | .hbm, ⟨11, _⟩ => ⟨S12800000, .i32⟩
  | .hbm, ⟨12, _⟩ => ⟨S12800000x1, .i32⟩
  | .hbm, ⟨13, _⟩ => ⟨S12800000x10, .f32⟩
  | .hbm, ⟨14, _⟩ => ⟨S_, .f32⟩
  | .hbm, ⟨15, _⟩ => ⟨S200000x10, .f32⟩
  | .hbm, ⟨16, _⟩ => ⟨S12800000x1, .i32⟩
  | .hbm, ⟨17, _⟩ => ⟨S200000x10, .f32⟩
  | .hbm, ⟨18, _⟩ => ⟨S_, .f32⟩
  | .hbm, ⟨19, _⟩ => ⟨S12800000, .f32⟩
  | .hbm, ⟨20, _⟩ => ⟨S_, .f32⟩
  | .hbm, ⟨21, _⟩ => ⟨S200000, .f32⟩
  | .hbm, ⟨22, _⟩ => ⟨S12800000x1, .i32⟩
  | .hbm, ⟨23, _⟩ => ⟨S200000, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S200000x1, .f32⟩
  | .hbm, ⟨28, _⟩ => ⟨S200000x10, .f32⟩
  | .hbm, ⟨29, _⟩ => ⟨S200000x10, .f32⟩
  | .hbm, ⟨30, _⟩ => ⟨S10x10, .f32⟩
  | .hbm, ⟨31, _⟩ => ⟨S200000x10, .f32⟩
  | .hbm, ⟨32, _⟩ => ⟨S10x10, .f32⟩
  | .hbm, ⟨33, _⟩ => ⟨S200000x10, .f32⟩
  | .hbm, ⟨34, _⟩ => ⟨S200000x10, .f32⟩
  | .hbm, ⟨35, _⟩ => ⟨S_, .f32⟩
  | .hbm, ⟨36, _⟩ => ⟨S200000x10, .f32⟩
  | .hbm, ⟨37, _⟩ => ⟨S200000x10, .f32⟩
  | _, _ => ⟨S200000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S_S12800000 : S_.BroadcastsInDim S12800000 (![] : Fin 0 → Fin S12800000.rank)
  bcast_S12800000_S12800000x1_0 : S12800000.BroadcastsInDim S12800000x1 (![0] : Fin 1 → Fin S12800000x1.rank)
  bcast_S_S200000x10 : S_.BroadcastsInDim S200000x10 (![] : Fin 0 → Fin S200000x10.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x10_0_1 : S200000x1.BroadcastsInDim S200000x10 (![0, 1] : Fin 2 → Fin S200000x10.rank)
  transposes_S10x10_S10x10_1_0 : S10x10.Transposes [1, 0] S10x10
  gather_S200000x10_S12800000x1_S12800000x10_1_0_n_n_0_1_110_wf : GatherDims.WF S200000x10 S12800000x1 S12800000x10 [1] [0] [] [0] [] 1 ![1, 10]
  scatter_S200000x10_S12800000x1_S12800000x10_1_0_0_1_wf : ScatterDims.WF S200000x10 S12800000x1 S12800000x10 [1] [0] [0] 1
  scatter_S200000_S12800000x1_S12800000_n_0_0_1_wf : ScatterDims.WF S200000 S12800000x1 S12800000 [] [0] [0] 1
  dot_S200000x10_S10x10_S200000x10_1_0_0_1_n_n_wf : DotDims.WF S200000x10 S10x10 S200000x10 [1] [0] [0] [1] [] []

variable [Facts₀]

def gather_S200000x10_S12800000x1_S12800000x10_1_0_n_n_0_1_110 : GatherDims S200000x10 S12800000x1 S12800000x10 where
  offsetDims := [1]
  collapsedSliceDims := [0]
  operandBatchingDims := []
  startIndicesBatchingDims := []
  startIndexMap := [0]
  indexVectorDim := 1
  sliceSizes := ![1, 10]
  wf := gather_S200000x10_S12800000x1_S12800000x10_1_0_n_n_0_1_110_wf
def scatter_S200000x10_S12800000x1_S12800000x10_1_0_0_1 : ScatterDims S200000x10 S12800000x1 S12800000x10 where
  updateWindowDims := [1]
  insertedWindowDims := [0]
  scatterDimsToOperandDims := [0]
  indexVectorDim := 1
  wf := scatter_S200000x10_S12800000x1_S12800000x10_1_0_0_1_wf
def scatter_S200000_S12800000x1_S12800000_n_0_0_1 : ScatterDims S200000 S12800000x1 S12800000 where
  updateWindowDims := []
  insertedWindowDims := [0]
  scatterDimsToOperandDims := [0]
  indexVectorDim := 1
  wf := scatter_S200000_S12800000x1_S12800000_n_0_0_1_wf
def dot_S200000x10_S10x10_S200000x10_1_0_0_1_n_n : DotDims S200000x10 S10x10 S200000x10 where
  lhsContracting := [1]
  rhsContracting := [0]
  lhsNonContracting := [0]
  rhsNonContracting := [1]
  lhsBatch := []
  rhsBatch := []
  wf := dot_S200000x10_S10x10_S200000x10_1_0_0_1_n_n_wf

class Facts : Prop extends Facts₀ where

variable [Facts]
-- ==== Proof.EdgeStage.lean ====
/-
  The edge stage both programs share, carried as two arrays and never opened.

  Before anything else either program gathers the feature row of every edge's source node (a negative source
  index first wrapped by the node count), adds each gathered row into its destination node's row of a zero array
  (`edgeSums`), and adds a one per edge into its destination node's entry of a zero vector (`edgeCounts`). The two
  programs print this stage with the same operations on the same operands, so the kernel's stage and the
  reference's are one term (`sums_same`, `counts_same`): what indices the gather reads or where the scatters land
  never matters to the comparison. The kernel's region finds the sums in one operand and the counts, reshaped to
  a column, in another (`sums_found`, `counts_found`). All of this holds for any reading of the float operations.
-/
import proofs.«104080_j41480794145043_1_alg».proof.Proof.Gen.KernelIdeal.Frame
import proofs.«104080_j41480794145043_1_alg».proof.Proof.Gen.ReferenceIdeal.Read
import Idealize.ShloMosaic.Lib.StableHlo.Run

noncomputable section

namespace Cert.KernelIdeal.EdgeStage

open Cert.KernelIdeal Cert.KernelIdeal.Gen
open Idealize.ShloMosaic Idealize.ShloMosaic.TcCoe Idealize.SL.Sem Idealize.ShloMosaic.StableHlo

variable {F : FTy → Type} [FloatOps F]

/-- Per destination node, the sum of the feature rows of its incoming edges' source nodes. -/
def edgeSums (x0 : (⟨S200000x10, .f32⟩ : BufTy).Contents (Elt F)) (x3 x4 : (⟨S12800000, .i32⟩ : BufTy).Contents (Elt F)) :
    (⟨S200000x10, .f32⟩ : BufTy).Contents (Elt F) :=
  Host.scatterAdd scatter_S200000x10_S12800000x1_S12800000x10_1_0_0_1
    (broadcastInDim S200000x10 ![] bcast_S_S200000x10 (constant (F := F) S_ .f32 0x00000000#32))
    (broadcastInDim S12800000x1 ![0] bcast_S12800000_S12800000x1_0 x4)
    (Host.gather gather_S200000x10_S12800000x1_S12800000x10_1_0_n_n_0_1_110 x0
      (broadcastInDim S12800000x1 ![0] bcast_S12800000_S12800000x1_0
        (select (cmpi .slt x3 (broadcastInDim S12800000 ![] bcast_S_S12800000 (constantI S_ 32 0#32)))
          (addi x3 (broadcastInDim S12800000 ![] bcast_S_S12800000 (constantI S_ 32 200000#32))) x3)))

/-- Per destination node, the number of its incoming edges. -/
def edgeCounts (x4 : (⟨S12800000, .i32⟩ : BufTy).Contents (Elt F)) : (⟨S200000, .f32⟩ : BufTy).Contents (Elt F) :=
  Host.scatterAdd scatter_S200000_S12800000x1_S12800000_n_0_0_1
    (broadcastInDim S200000 ![] bcast_S_S200000 (constant (F := F) S_ .f32 0x00000000#32))
    (broadcastInDim S12800000x1 ![0] bcast_S12800000_S12800000x1_0 x4)
    (broadcastInDim S12800000 ![] bcast_S_S12800000 (constant (F := F) S_ .f32 0x3F800000#32))

/-- The reference's edge sums are the same term. -/
theorem sums_same (x0 : (⟨S200000x10, .f32⟩ : BufTy).Contents (Elt F)) (x3 x4 : (⟨S12800000, .i32⟩ : BufTy).Contents (Elt F)) :
    Cert.ReferenceIdeal.Read.val_main_v9 (F := F) x0 x3 x4 = edgeSums x0 x3 x4 := rfl

/-- The reference's edge counts are the same term. -/
theorem counts_same (x4 : (⟨S12800000, .i32⟩ : BufTy).Contents (Elt F)) :
    Cert.ReferenceIdeal.Read.val_main_v13 (F := F) x4 = edgeCounts x4 := rfl

variable (m : (ℓ : Loc nD τ sig) → Buf (Elt F) ℓ)

/-- The region finds the edge sums of the launched arrays in its first operand's array. -/
theorem sums_found (c : Dev nD) :
    (V m c main_v9 : (⟨S200000x10, .f32⟩ : BufTy).Contents (Elt F))
      = edgeSums (m ((c : Thread nD τ).loc main_arg0)) (m ((c : Thread nD τ).loc main_arg3)) (m ((c : Thread nD τ).loc main_arg4)) := by
  dsimp only [Gen.V, Gen.hostOps0]
  after_results
  rfl

/-- The region finds the edge counts, reshaped to a column, in its second operand's array. -/
theorem counts_found (c : Dev nD) :
    (V m c main_v14 : (⟨S200000x1, .f32⟩ : BufTy).Contents (Elt F))
      = shapeCast S200000x1 (edgeCounts (m ((c : Thread nD τ).loc main_arg4))) shapeCasts_S200000_S200000x1 := by
  dsimp only [Gen.V, Gen.hostOps0]
  after_results
  rfl

end Cert.KernelIdeal.EdgeStage

end
-- ==== Proof.BlockRows.lean ====
/-
  Which rows of which arrays a grid point works on, for any reading of the float operations.

  The grid has 25 points; point `t` handles node rows `8000 t … 8000 t + 7999`. Its block of the first operand is
  those rows of the edge sums, its block of the second operand those entries of the edge counts (stored as a
  column), and the two weight matrices are staged whole. What the point writes back is the body's stored value
  read through block `t` of the output, so if the stored value at block index `j` is `G` at array row
  `8000 t + j₀`, column `j₁`, the point writes back block `t` of `G`; and since row `r` lies in block `r / 8000`,
  the 25 blocks tile the array and the output ends as `G`.
-/
import proofs.«104080_j41480794145043_1_alg».proof.Proof.Gen.KernelIdeal.Value
import proofs.«104080_j41480794145043_1_alg».proof.Proof.EdgeStage
import Idealize.ShloMosaic.Lib.Pipeline.Value
import Idealize.ShloMosaic.Lib.ValueIdx
import Idealize.ShloMosaic.Lib.Tactic

noncomputable section

namespace Cert.KernelIdeal.BlockRows

open Cert.KernelIdeal Cert.KernelIdeal.Gen Cert.KernelIdeal.Value Cert.KernelIdeal.EdgeStage
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The printed index maps over the 25 points: the sums, the counts column and the output move together, block
    `t` along the rows and the one block across; the weights stay at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The sums block at point `t` holds rows `8000 t + ·` of the edge sums. -/
theorem sums_block_at (c : Dev nD) (t : Fin cfg0.N) (x : S8000x10.Idx) (i : S200000x10.Idx)
    (h0 : (i 0).val = t.val * 8000 + (x 0).val) (h1 : (i 1).val = (x 1).val) :
    (iblk m c 0 t : Vec F S8000x10 .f32) x = edgeSums (m ((c : Thread nD τ).loc main_arg0)) (m ((c : Thread nD τ).loc main_arg3)) (m ((c : Thread nD τ).loc main_arg4)) i := by
  obtain ⟨e00, e01, -⟩ := idx_facts t
  unfold iblk
  rw [View.read_apply]
  show (V m c main_v9 : (⟨S200000x10, .f32⟩ : BufTy).Contents (Elt F)) _ = _
  rw [sums_found]
  refine congrArg _ (funext fun a => Fin.ext ?_)
  match a with
  | ⟨0, _⟩ => show win0_0.index t (0 : Fin 2) * 8000 + 1 * (x 0).val = (i 0).val; rw [e00, h0]; omega
  | ⟨1, _⟩ => show win0_0.index t (1 : Fin 2) * 10 + 1 * (x 1).val = (i 1).val; rw [e01, h1]; omega

/-- A vector reshaped to a column reads, at `(r, 0)`, the vector at `r`. -/
theorem column_at {α : Type} (v : S200000.Idx → α) (h : S200000.ShapeCasts S200000x1) (i : S200000x1.Idx) (r : Fin 200000)
    (hr : (i 0).val = r.val) : shapeCast S200000x1 v h i = v (ix1 r) := by
  refine shapeCast_apply v h i (ix1 r) ?_
  rw [Shape.rowMajor_val_one, Shape.rowMajor_val_two]
  have h1 : (i 1).val < 1 := (i 1).isLt
  show r.val = (i 0).val * 1 + (i 1).val
  omega

/-- The counts block at point `t` holds entries `8000 t + ·` of the edge counts. -/
theorem counts_block_at (c : Dev nD) (t : Fin cfg0.N) (x : S8000x1.Idx) (r : Fin 200000)
    (h0 : r.val = t.val * 8000 + (x 0).val) :
    (iblk m c 1 t : Vec F S8000x1 .f32) x = edgeCounts (m ((c : Thread nD τ).loc main_arg4)) (ix1 r) := by
  obtain ⟨-, -, e10, e11, -⟩ := idx_facts t
  unfold iblk
  rw [View.read_apply]
  show (V m c main_v14 : (⟨S200000x1, .f32⟩ : BufTy).Contents (Elt F)) _ = _
  rw [counts_found]
  refine column_at _ _ _ r ?_
  show win0_1.index t (0 : Fin 2) * 8000 + 1 * (x 0).val = r.val
  rw [e10, h0]; omega

/-- The first weight matrix is staged whole. -/
theorem weights_block_w (c : Dev nD) (t : Fin cfg0.N) : (iblk m c 2 t : Vec F S10x10 .f32) = (m ((c : Thread nD τ).loc main_arg1)) := by
  obtain ⟨-, -, -, -, e20, e21, -⟩ := idx_facts t
  funext y
  unfold iblk
  rw [View.read_apply]
  show (V m c main_arg1 : (⟨S10x10, .f32⟩ : BufTy).Contents (Elt F)) _ = _
  rw [V_main_arg1]
  refine congrArg _ (funext fun a => Fin.ext ?_)
  match a with
  | ⟨0, _⟩ => show win0_2.index t (0 : Fin 2) * 10 + 1 * (y 0).val = (y 0).val; rw [e20]; omega
  | ⟨1, _⟩ => show win0_2.index t (1 : Fin 2) * 10 + 1 * (y 1).val = (y 1).val; rw [e21]; omega

/-- The second weight matrix is staged whole. -/
theorem weights_block_b (c : Dev nD) (t : Fin cfg0.N) : (iblk m c 3 t : Vec F S10x10 .f32) = (m ((c : Thread nD τ).loc main_arg2)) := by
  obtain ⟨-, -, -, -, -, -, e30, e31, -⟩ := idx_facts t
  funext y
  unfold iblk
  rw [View.read_apply]
  show (V m c main_arg2 : (⟨S10x10, .f32⟩ : BufTy).Contents (Elt F)) _ = _
  rw [V_main_arg2]
  refine congrArg _ (funext fun a => Fin.ext ?_)
  match a with
  | ⟨0, _⟩ => show win0_3.index t (0 : Fin 2) * 10 + 1 * (y 0).val = (y 0).val; rw [e30]; omega
  | ⟨1, _⟩ => show win0_3.index t (1 : Fin 2) * 10 + 1 * (y 1).val = (y 1).val; rw [e31]; omega

/-! ## What a point writes back, the cover, and the run -/

/-- If the body's stored value at block index `j` of point `t` is `G` at row `8000 t + j₀`, column `j₁`, then what
    the point writes back is block `t` of `G`. -/
theorem flushed_read (c : Dev nD) (t : Fin cfg0.N) (G : Buf (Elt F) ((c : Thread nD τ).loc main_v15))
    (hG : ∀ (j : S8000x10.Idx) (i : S200000x10.Idx), (i 0).val = t.val * 8000 + (j 0).val → (i 1).val = (j 1).val →
      k0_pay1 (iblk m c 1 t) (iblk m c 0 t) (iblk m c 2 t) (iblk m c 3 t) j = (G : S200000x10.Idx → Elt F .f32) i) :
    (dats m 0 c).flushed 4 t = ((cfg0.win 4).blk t).view.read (Elt F) G := by
  rw [flushed4]
  unfold out0_4
  rw [View.canon_unit_zero hz]
  simp only [View.ld_unit_zero (S := S8000x1) hz, View.ld_unit_zero (S := S8000x10) hz, View.ld_unit_zero (S := S10x10) hz]
  obtain ⟨-, -, -, -, -, -, -, -, e40, e41⟩ := idx_facts t
  funext j
  refine hG j (((cfg0.win 4).blk t).view.emb j) ?_ ?_
  · show win0_4.index t (0 : Fin 2) * 8000 + 1 * (j 0).val = t.val * 8000 + (j 0).val
    rw [e40]; omega
  · show win0_4.index t (1 : Fin 2) * 10 + 1 * (j 1).val = (j 1).val
    rw [e41]; omega

/-- An index of the output array is in point `t`'s block iff each coordinate is in the block's range on its axis. -/
theorem mem_block (t : Fin cfg0.N) (i : S200000x10.Idx) :
    i ∈ ((cfg0.win 4).blk t).view.set ↔ ∀ a : Fin 2, win0_4.index t a * S8000x10.size a ≤ (i a).val ∧ (i a).val < win0_4.index t a * S8000x10.size a + S8000x10.size a := by
  show i ∈ ((View.whole main_v15).slice (win0_4.rect t)).set ↔ _
  rw [View.set_slice_whole, Rect.mem_set_unit]
  exact Iff.rfl

/-- Every index of the output array lies in the block of the point `row / 8000`. -/
theorem covered (i : S200000x10.Idx) : ∃ t : Fin cfg0.N, (cfg0.win 4).flush t = true ∧ i ∈ ((cfg0.win 4).blk t).view.set := by
  have hi0 : (i 0).val < 200000 := (i 0).isLt
  have hi1 : (i 1).val < 10 := (i 1).isLt
  have hN : cfg0.N = 25 := N_0
  obtain ⟨t, ht⟩ : ∃ t : Fin cfg0.N, t.val = (i 0).val / 8000 := ⟨⟨(i 0).val / 8000, by rw [hN]; omega⟩, rfl⟩
  obtain ⟨-, -, -, -, -, -, -, -, e40, e41⟩ := idx_facts t
  refine ⟨t, flush0_4 t, ?_⟩
  rw [mem_block]
  intro a
  match a with
  | ⟨0, _⟩ => show win0_4.index t (0 : Fin 2) * 8000 ≤ (i 0).val ∧ (i 0).val < win0_4.index t (0 : Fin 2) * 8000 + 8000; rw [e40, ht]; omega
  | ⟨1, _⟩ => show win0_4.index t (1 : Fin 2) * 10 ≤ (i 1).val ∧ (i 1).val < win0_4.index t (1 : Fin 2) * 10 + 10; rw [e41]; omega

/-- So the output array ends as `G`, whenever every point stores its rows of `G`. -/
theorem final_of (c : Dev nD) (G : Buf (Elt F) ((c : Thread nD τ).loc main_v15))
    (hG : ∀ (t : Fin cfg0.N) (j : S8000x10.Idx) (i : S200000x10.Idx), (i 0).val = t.val * 8000 + (j 0).val → (i 1).val = (j 1).val →
      k0_pay1 (iblk m c 1 t) (iblk m c 0 t) (iblk m c 2 t) (iblk m c 3 t) j = (G : S200000x10.Idx → Elt F .f32) i) :
    (dats m 0 c).arrAt 4 cfg0.N = G :=
  (dats m 0 c).arrAt_eq_of_cover 4 G (fun t _ => flushed_read m c t G (hG t)) covered

/-- The run, read: the result array at `G`, the arguments unchanged. -/
theorem run_of (G : (c : Dev nD) → Buf (Elt F) ((c : Thread nD τ).loc main_v15))
    (hG : ∀ (c : Dev nD) (t : Fin cfg0.N) (j : S8000x10.Idx) (i : S200000x10.Idx), (i 0).val = t.val * 8000 + (j 0).val → (i 1).val = (j 1).val →
      k0_pay1 (iblk m c 1 t) (iblk m c 0 t) (iblk m c 2 t) (iblk m c 3 t) j = (G c : S200000x10.Idx → Elt F .f32) i) :
    θ_run defs (onTc (τ := τ) (main (F := F))) ⟨m, fun _ => 0, ρ⟩ fun r => ∀ c : Dev nD,
      r.2.mem ((c : Thread nD τ).loc main_v15) = G c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_of m c (G c) (hG c)), (h c).2⟩) (run_blocks m ρ)

end Cert.KernelIdeal.BlockRows

end
-- ==== Proof.KernelBlock.lean ====
/-
  The kernel body's stored value at one index of its block.

  At a grid point the body holds a block of 8000 node rows: their summed features `a : [8000, 10]`, their edge
  counts as a column `c : [8000, 1]`, and the two weight matrices. It clamps the count at one, spreads it along
  the row, divides, and multiplies the quotient by each transposed weight matrix into a zero accumulator; the
  two products are added and the positive part is stored. A change of float format is the identity on the
  extended reals, a product into a zero accumulator is the plain sum over the ten input features, and the
  transpose swaps the weight's coordinates. So the stored value at `(p, q)` is
  `max (∑ k, (a p k / max (c p 0) 1) · w q k + ∑ k, (a p k / max (c p 0) 1) · b q k) 0`.
-/
import proofs.«104080_j41480794145043_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockValue

open Cert.KernelIdeal Cert.KernelIdeal.Gen
open Idealize.ShloMosaic Idealize.ShloMosaic.ValueIdx

/-! ## The product's operand indices: rows of the left factor, columns of the right, one contracted axis -/

theorem left_row (i : S8000x10.Idx) (q : dot_S8000x10_S10x10_S8000x10_1_0_0_1_n_n.contr.Idx) :
    (dot_S8000x10_S10x10_S8000x10_1_0_0_1_n_n.lhsIdx i q 0).val = (i 0).val := by
  unfold DotDims.lhsIdx
  rw [dif_neg (show ¬(0 : Fin S8000x10.rank) ∈ dot_S8000x10_S10x10_S8000x10_1_0_0_1_n_n.lhsBatch by decide), dif_pos (show (0 : Fin S8000x10.rank) ∈ dot_S8000x10_S10x10_S8000x10_1_0_0_1_n_n.lhsNonContracting by decide)]
  rfl
theorem left_feature (i : S8000x10.Idx) (q : dot_S8000x10_S10x10_S8000x10_1_0_0_1_n_n.contr.Idx) :
    (dot_S8000x10_S10x10_S8000x10_1_0_0_1_n_n.lhsIdx i q 1).val = (q ⟨0, by decide⟩).val :=
  dot_S8000x10_S10x10_S8000x10_1_0_0_1_n_n.lhsIdx_val_of_single rfl i q
theorem right_feature (i : S8000x10.Idx) (q : dot_S8000x10_S10x10_S8000x10_1_0_0_1_n_n.contr.Idx) :
    (dot_S8000x10_S10x10_S8000x10_1_0_0_1_n_n.rhsIdx i q 0).val = (q ⟨0, by decide⟩).val :=
  dot_S8000x10_S10x10_S8000x10_1_0_0_1_n_n.rhsIdx_val_of_single rfl i q
theorem right_column (i : S8000x10.Idx) (q : dot_S8000x10_S10x10_S8000x10_1_0_0_1_n_n.contr.Idx) :
    (dot_S8000x10_S10x10_S8000x10_1_0_0_1_n_n.rhsIdx i q 1).val = (i 1).val := by
  unfold DotDims.rhsIdx
  rw [dif_neg (show ¬(1 : Fin S10x10.rank) ∈ dot_S8000x10_S10x10_S8000x10_1_0_0_1_n_n.rhsBatch by decide), dif_pos (show (1 : Fin S10x10.rank) ∈ dot_S8000x10_S10x10_S8000x10_1_0_0_1_n_n.rhsNonContracting by decide)]
  rfl

/-- A block of rows times a matrix, into a zero accumulator, at `(p, q)`: the sum over the ten features `k` of the
    row's entry `k` times the matrix's entry `(k, q)`. -/
theorem product_at {φ₁ φ₂ : FTy} (l : FVec Ideal S8000x10 φ₁) (r : FVec Ideal S10x10 φ₂) (p : Fin 8000) (q : Fin 10) :
    matmul dot_S8000x10_S10x10_S8000x10_1_0_0_1_n_n none l r (constant S8000x10 .f32 0x00000000#32) (ix2 p q)
      = ∑ k : Fin 10, l (ix2 p k) * r (ix2 k q) := by
  show FloatOps.matmul dot_S8000x10_S10x10_S8000x10_1_0_0_1_n_n none l r (constant S8000x10 .f32 0x00000000#32) (ix2 p q) = _
  rw [Ideal.matmul_constant_zero_apply, ← Equiv.sum_comp (contrEquiv1 dot_S8000x10_S10x10_S8000x10_1_0_0_1_n_n 10 rfl rfl).symm]
  refine Finset.sum_congr rfl fun k _ => ?_
  have hk := contrEquiv1_symm_val dot_S8000x10_S10x10_S8000x10_1_0_0_1_n_n 10 rfl rfl k
  have el : dot_S8000x10_S10x10_S8000x10_1_0_0_1_n_n.lhsIdx (ix2 p q) ((contrEquiv1 dot_S8000x10_S10x10_S8000x10_1_0_0_1_n_n 10 rfl rfl).symm k) = ix2 p k := funext fun a => Fin.ext (by
    match a with
    | ⟨0, _⟩ => exact left_row _ _
    | ⟨1, _⟩ => exact (left_feature _ _).trans hk)
  have er : dot_S8000x10_S10x10_S8000x10_1_0_0_1_n_n.rhsIdx (ix2 p q) ((contrEquiv1 dot_S8000x10_S10x10_S8000x10_1_0_0_1_n_n 10 rfl rfl).symm k) = ix2 k q := funext fun a => Fin.ext (by
    match a with
    | ⟨0, _⟩ => exact (right_feature _ _).trans hk
    | ⟨1, _⟩ => exact right_column _ _)
  rw [el, er]

/-- A column spread along the rows reads, at `(p, k)`, the column's entry `p`. -/
theorem column_spread_at {α : Type} (v : S8000x1.Idx → α) (h : S8000x1.Broadcasts S8000x10) (p : Fin 8000) (k : Fin 10) :
    broadcastTo S8000x10 v h (ix2 p k) = v (ix2 p 0) :=
  broadcastTo_apply v h (ix2 p k) (ix2 p 0) fun a => by
    match a with
    | ⟨0, _⟩ => show p.val = if (8000 : Nat) = 1 then 0 else p.val; rw [if_neg (by decide)]
    | ⟨1, _⟩ => show 0 = if (1 : Nat) = 1 then 0 else k.val; rw [if_pos rfl]

/-- A transposed ten by ten matrix reads, at `(k, q)`, the matrix at `(q, k)`. -/
theorem transposed_at {α : Type} (x : S10x10.Idx → α) (h : S10x10.Transposes [1, 0] S10x10) (k q : Fin 10) :
    transpose S10x10 [1, 0] x h (ix2 k q) = x (ix2 q k) :=
  transpose_apply [1, 0] x h (ix2 k q) (ix2 q k) fun b => match b with | ⟨0, _⟩ => rfl | ⟨1, _⟩ => rfl

/-- The mean row the body forms, at `(p, k)`. -/
def meanRow (c : Vec Ideal S8000x1 .f32) (a : Vec Ideal S8000x10 .f32) (p : Fin 8000) (k : Fin 10) : EReal :=
  Ideal.div (a (ix2 p k)) (max (c (ix2 p 0)) (Ideal.ofBits .f32 0x3F800000#32))

/-- THE STORED VALUE at `(p, q)`. -/
theorem stored_at (c : Vec Ideal S8000x1 .f32) (a : Vec Ideal S8000x10 .f32) (w b : Vec Ideal S10x10 .f32)
    (p : Fin 8000) (q : Fin 10) :
    k0_pay1 (F := Ideal) c a w b (ix2 p q)
      = max ((∑ k : Fin 10, meanRow c a p k * w (ix2 q k)) + ∑ k : Fin 10, meanRow c a p k * b (ix2 q k))
          (Ideal.ofBits .f32 0x00000000#32) := by
  unfold k0_pay1
  dsimp only
  rw [maximumf_apply, addf_apply, product_at, product_at, broadcast_apply]
  simp only [truncf_apply, divf_apply, shapeCast_self, column_spread_at, maximumf_apply, broadcast_apply,
    Ideal.ofBits_def]
  refine congrArg₂ max (congrArg₂ (· + ·) (Finset.sum_congr rfl fun k _ => ?_) (Finset.sum_congr rfl fun k _ => ?_)) rfl
  · rw [transposed_at, truncf_apply]; rfl
  · rw [transposed_at, truncf_apply]; rfl

end Cert.KernelIdeal.BlockValue

end
-- ==== Proof.MeanUpdate.lean ====
/-
  The node update that both programs compute, as one function of four arrays, index by index.

  `A : [200000, 10]` holds for every node the sum of the features of the sources of its incoming edges, `cnt : [200000]`
  the number of those edges. Node `r`'s mean of feature `k` is `A r k / max (cnt r) 1`: the count is clamped below at one,
  so a node without edges divides its zero sum by one. The result at `(r, j)` is

      max (∑ k, mean r k · W j k  +  ∑ k, mean r k · B j k) 0

  — two linear layers applied to the mean row (`x · Wᵀ` and `x · Bᵀ`, ten terms each), added, then the positive part.
  On the extended reals the quotient is `Ideal.div`, and `1` and `0` are what their IEEE words denote. Nothing here
  needs a finite input: the two programs will be shown to be this same expression term by term, so no law that
  fails at an infinity (distributivity, cancellation) is used.
-/
import Idealize.ShloMosaic.PureOps.Ideal
import Idealize.ShloMosaic.Lib.ValueIdx

noncomputable section

open scoped BigOperators

namespace Cert.MeanUpdate

open Idealize.ShloMosaic Idealize.ShloMosaic.ValueIdx

/-- Per-node rows of ten features. -/
abbrev Nodes : Shape := ⟨2, ![200000, 10]⟩
/-- One number per node. -/
abbrev Counts : Shape := ⟨1, ![200000]⟩
/-- A ten by ten weight matrix, `W j k` multiplying input feature `k` into output feature `j`. -/
abbrev Weights : Shape := ⟨2, ![10, 10]⟩

/-- Node `r`'s mean of feature `k`: the summed feature over the edge count clamped below at one. -/
def mean (A : FVec Ideal Nodes .f32) (cnt : FVec Ideal Counts .f32) (r : Fin 200000) (k : Fin 10) : EReal :=
  Ideal.div (A (ix2 r k)) (max (cnt (ix1 r)) (Ideal.ofBits .f32 0x3F800000#32))

/-- The updated feature `j` of node `r`: both linear layers of the node's mean row, added, and the positive part. -/
def updateAt (A : FVec Ideal Nodes .f32) (cnt : FVec Ideal Counts .f32) (W B : FVec Ideal Weights .f32)
    (r : Fin 200000) (j : Fin 10) : EReal :=
  max ((∑ k : Fin 10, mean A cnt r k * W (ix2 j k)) + ∑ k : Fin 10, mean A cnt r k * B (ix2 j k))
    (Ideal.ofBits .f32 0x00000000#32)

/-- The updated features as an array. -/
def update (A : FVec Ideal Nodes .f32) (cnt : FVec Ideal Counts .f32) (W B : FVec Ideal Weights .f32) :
    FVec Ideal Nodes .f32 := fun i => updateAt A cnt W B (i 0) (i 1)

theorem update_apply (A : FVec Ideal Nodes .f32) (cnt : FVec Ideal Counts .f32) (W B : FVec Ideal Weights .f32)
    (r : Fin 200000) (j : Fin 10) : update A cnt W B (ix2 r j) = updateAt A cnt W B r j := rfl

end Cert.MeanUpdate

end
-- ==== Proof.KernelArray.lean ====
/-
  The kernel's result array is the node update of the edge sums and edge counts.

  At point `t` the body's blocks are rows `8000 t + ·` of the edge stage's arrays and the whole weight matrices
  (the block-rows module), so its stored value at `(p, q)`, which is `max (∑ k, mean p k · w q k + ∑ k, mean p k · b q k) 0`
  over its own blocks (the kernel-block module), is `MeanUpdate.updateAt` of node `8000 t + p` and feature `q`. The
  blocks tile the array, so the result array ends as `MeanUpdate.update` of the launched arrays' edge stage.
-/
import proofs.«104080_j41480794145043_1_alg».proof.Proof.BlockRows
import proofs.«104080_j41480794145043_1_alg».proof.Proof.KernelBlock
import proofs.«104080_j41480794145043_1_alg».proof.Proof.MeanUpdate

noncomputable section

open scoped BigOperators

namespace Cert.KernelIdeal.ArrayValue

open Cert.KernelIdeal Cert.KernelIdeal.Gen Cert.KernelIdeal.BlockValue Cert.KernelIdeal.EdgeStage Cert.KernelIdeal.BlockRows
open Cert.MeanUpdate
open Idealize.ShloMosaic Idealize.ShloMosaic.TcCoe Idealize.SL.Sem Idealize.ShloMosaic.ValueIdx

variable (m : (ℓ : Loc nD τ sig) → Buf (Elt Ideal) ℓ) (ρ : Dev nD → PrngReg)

/-- The result: the node update of the launched arrays' edge sums and edge counts under the launched weights. -/
def result (c : Dev nD) : Buf (Elt Ideal) ((c : Thread nD τ).loc main_v15) :=
  update (edgeSums (F := Ideal) (m ((c : Thread nD τ).loc main_arg0)) (m ((c : Thread nD τ).loc main_arg3)) (m ((c : Thread nD τ).loc main_arg4))) (edgeCounts (F := Ideal) (m ((c : Thread nD τ).loc main_arg4))) (m ((c : Thread nD τ).loc main_arg1)) (m ((c : Thread nD τ).loc main_arg2))

/-- The body's stored value at `(p, q)`, for blocks that are row `r` of `A` and of `cnt` at block row `p`: node `r`'s
    update. -/
theorem stored_is_update (c1 : Vec Ideal S8000x1 .f32) (a : Vec Ideal S8000x10 .f32) (w b : Vec Ideal S10x10 .f32)
    (A : FVec Ideal Nodes .f32) (cnt : FVec Ideal Counts .f32) (p : Fin 8000) (q : Fin 10) (r : Fin 200000)
    (ha : ∀ k : Fin 10, a (ix2 p k) = A (ix2 r k)) (hc : c1 (ix2 p 0) = cnt (ix1 r)) :
    k0_pay1 (F := Ideal) c1 a w b (ix2 p q) = updateAt A cnt w b r q := by
  rw [stored_at]
  unfold updateAt
  refine congrArg₂ max (congrArg₂ (· + ·) (Finset.sum_congr rfl fun k _ => ?_) (Finset.sum_congr rfl fun k _ => ?_)) rfl
  · unfold meanRow mean; rw [ha k, hc]
  · unfold meanRow mean; rw [ha k, hc]

/-- At point `t`, block index `j`, the body stores the result at row `8000 t + j₀`, column `j₁`. -/
theorem point_value (c : Dev nD) (t : Fin cfg0.N) (j : S8000x10.Idx) (i : S200000x10.Idx)
    (h0 : (i 0).val = t.val * 8000 + (j 0).val) (h1 : (i 1).val = (j 1).val) :
    k0_pay1 (F := Ideal) (iblk m c 1 t) (iblk m c 0 t) (iblk m c 2 t) (iblk m c 3 t) j
      = (result m c : S200000x10.Idx → EReal) i := by
  obtain ⟨p, q, rfl⟩ : ∃ (p : Fin 8000) (q : Fin 10), j = ix2 p q := ⟨j 0, j 1, eq_ix2 j⟩
  obtain ⟨r, s, rfl⟩ : ∃ (r : Fin 200000) (s : Fin 10), i = ix2 r s := ⟨i 0, i 1, eq_ix2 i⟩
  have hr : r.val = t.val * 8000 + p.val := h0
  obtain rfl : s = q := Fin.ext h1
  refine (stored_is_update (iblk m c 1 t) (iblk m c 0 t) (iblk m c 2 t) (iblk m c 3 t)
    (edgeSums (F := Ideal) (m ((c : Thread nD τ).loc main_arg0)) (m ((c : Thread nD τ).loc main_arg3)) (m ((c : Thread nD τ).loc main_arg4))) (edgeCounts (F := Ideal) (m ((c : Thread nD τ).loc main_arg4))) p s r
    (fun k => sums_block_at (F := Ideal) m c t (ix2 p k) (ix2 r k) hr rfl)
    (counts_block_at (F := Ideal) m c t (ix2 p 0) r hr)).trans ?_
  unfold result
  rw [update_apply]
  exact congrArg₂ (fun w b => updateAt (edgeSums (F := Ideal) (m ((c : Thread nD τ).loc main_arg0)) (m ((c : Thread nD τ).loc main_arg3)) (m ((c : Thread nD τ).loc main_arg4)))
    (edgeCounts (F := Ideal) (m ((c : Thread nD τ).loc main_arg4))) w b r s) (weights_block_w (F := Ideal) m c t) (weights_block_b (F := Ideal) m c t)

/-- The run, read: the result array at the node update, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  run_of (F := Ideal) m ρ (result m) (point_value m)

end Cert.KernelIdeal.ArrayValue

end
-- ==== Proof.ReferenceMean.lean ====
/-
  The reference's result is the node update of its own edge sums and edge counts.

  After the gather and the two scatter-adds the reference clamps the count at one, spreads it along the feature
  axis, divides, multiplies the quotient by the transposed weight matrices, adds the two products and takes the
  positive part. Read at an index `(r, j)` each product is a sum over the ten input features `k` of the quotient at
  `(r, k)` times the weight at `(j, k)` (the transpose swaps the weight's coordinates), which is `MeanUpdate.update`
  of the scatter-added arrays. The gather and the scatters are never opened: they enter only as the two arrays.
-/
import proofs.«104080_j41480794145043_1_alg».proof.Proof.Gen.ReferenceIdeal.Read
import proofs.«104080_j41480794145043_1_alg».proof.Proof.MeanUpdate

noncomputable section

open scoped BigOperators

namespace Cert.ReferenceIdeal.MeanValue

open Cert.ReferenceIdeal Cert.ReferenceIdeal.Gen Cert.ReferenceIdeal.Read
open Idealize.ShloMosaic Idealize.ShloMosaic.ValueIdx Cert.MeanUpdate

/-! ## Where each factor sits, at output `(r, j)` and input feature `k` -/

/-- The left factor of the first product sits at `(r, k)`; -/
theorem left_at_w (r : Fin 200000) (j k : Fin 10) : lidx_main_v20 (ix2 r j) k = ix2 r k :=
  funext fun a => by match a with | ⟨0, _⟩ => rfl | ⟨1, _⟩ => rfl
/-- the second product's likewise. -/
theorem left_at_b (r : Fin 200000) (j k : Fin 10) : lidx_main_v22 (ix2 r j) k = ix2 r k :=
  funext fun a => by match a with | ⟨0, _⟩ => rfl | ⟨1, _⟩ => rfl

/-- The first transposed weight at `(k, j)` is the weight at `(j, k)`; -/
theorem weight_at_w (r : Fin 200000) (j k : Fin 10) : idx_main_v19 (ridx_main_v20 (ix2 r j) k) = ix2 j k :=
  funext fun a => by match a with | ⟨0, _⟩ => rfl | ⟨1, _⟩ => rfl
/-- the second likewise. -/
theorem weight_at_b (r : Fin 200000) (j k : Fin 10) : idx_main_v21 (ridx_main_v22 (ix2 r j) k) = ix2 j k :=
  funext fun a => by match a with | ⟨0, _⟩ => rfl | ⟨1, _⟩ => rfl

/-- The divisor at `(r, k)` is read from the clamped count of node `r`. -/
theorem count_at (r : Fin 200000) (k : Fin 10) : idx_main_v16 (idx_main_v17 (ix2 r k)) = ix1 r :=
  funext fun a => by match a with | ⟨0, _⟩ => rfl

variable (x0 : (⟨S200000x10, .f32⟩ : BufTy).Contents (Elt Ideal)) (x1 x2 : (⟨S10x10, .f32⟩ : BufTy).Contents (Elt Ideal))
  (x3 x4 : (⟨S12800000, .i32⟩ : BufTy).Contents (Elt Ideal))

/-! ## The quotient, then the result -/

/-- The reference's quotient at `(r, k)` is node `r`'s mean of feature `k`. -/
theorem quotient_at (r : Fin 200000) (k : Fin 10) :
    val_main_v18 (F := Ideal) x0 x3 x4 (ix2 r k)
      = mean (val_main_v9 (F := Ideal) x0 x3 x4) (val_main_v13 (F := Ideal) x4) r k := by
  rw [val_main_v18_apply, val_main_v17_apply, val_main_v16_apply, count_at, val_main_v15_apply, val_main_v14_apply,
    val_main_cst_3_apply]
  simp only [Ideal.hostDivf_def, Ideal.maximumf_def, Ideal.ofBits_def, mean]

/-- The reference's last stage is the node update of the scatter-added sums and counts. -/
theorem result_eq :
    val_main_v24 (F := Ideal) x0 x1 x2 x3 x4
      = update (val_main_v9 (F := Ideal) x0 x3 x4) (val_main_v13 (F := Ideal) x4) x1 x2 := by
  funext i
  obtain ⟨r, j, rfl⟩ : ∃ (r : Fin 200000) (j : Fin 10), i = ix2 r j := ⟨i 0, i 1, eq_ix2 i⟩
  rw [val_main_v24_apply, val_main_v23_apply, val_main_v20_apply, val_main_v22_apply, val_main_call0_v0_apply,
    val_main_call0_cst_apply, Ideal.maximumf_def, Ideal.addf_def, Ideal.ofBits_def, update_apply]
  unfold updateAt
  refine congrArg₂ max (congrArg₂ (· + ·) (Finset.sum_congr rfl fun k _ => ?_) (Finset.sum_congr rfl fun k _ => ?_)) rfl
  · rw [left_at_w, quotient_at, val_main_v19_apply, weight_at_w]
  · rw [left_at_b, quotient_at, val_main_v21_apply, weight_at_b]

end Cert.ReferenceIdeal.MeanValue

end
-- ==== Proof.lean ====
/-
  Mean aggregation over incoming edges, two linear layers and a positive part: the kernel against its reference.

  Both programs start with the same edge stage on the host: gather each edge's source row, scatter-add the rows
  and a one per edge into the destination nodes. The kernel then hands the sums and the counts (as a column) to a
  pipelined region over 25 blocks of 8000 node rows, which divides by the count clamped at one, multiplies by the
  two transposed weight matrices, adds and takes the positive part; the reference does the same on whole arrays.
  On the extended reals both are one function of the edge stage's arrays and the weights (`MeanUpdate.update`): the
  kernel's format changes are the identity, its product into a zero accumulator is the reference's contraction
  sum, and the two sides agree term by term, so no finiteness of the inputs is used for the value. The three
  frames are the generated class A frames of the two kernels and the reference's generated run; the idealization
  rewrote nothing, so `preserves` is trivial.
-/
import proofs.«104080_j41480794145043_1_alg».proof.Defs
import proofs.«104080_j41480794145043_1_alg».proof.Proof.Gen.Kernel
import proofs.«104080_j41480794145043_1_alg».proof.Proof.Gen.Kernel.Skeleton
import proofs.«104080_j41480794145043_1_alg».proof.Proof.Gen.Kernel.Launch
import proofs.«104080_j41480794145043_1_alg».proof.Proof.Gen.Kernel.Points
import proofs.«104080_j41480794145043_1_alg».proof.Proof.Gen.Kernel.Frame
import proofs.«104080_j41480794145043_1_alg».proof.Proof.Gen.KernelIdeal
import proofs.«104080_j41480794145043_1_alg».proof.Proof.Gen.KernelIdeal.Skeleton
import proofs.«104080_j41480794145043_1_alg».proof.Proof.Gen.KernelIdeal.Launch
import proofs.«104080_j41480794145043_1_alg».proof.Proof.Gen.KernelIdeal.Points
import proofs.«104080_j41480794145043_1_alg».proof.Proof.Gen.KernelIdeal.Frame
import proofs.«104080_j41480794145043_1_alg».proof.Proof.Gen.ReferenceIdeal
import proofs.«104080_j41480794145043_1_alg».proof.Proof.Gen.Pre_finite_inputs
import proofs.«104080_j41480794145043_1_alg».proof.Proof.Gen.KernelIdeal.Value
import proofs.«104080_j41480794145043_1_alg».proof.Proof.Gen.ReferenceIdeal.Run
import proofs.«104080_j41480794145043_1_alg».proof.Proof.Gen.ReferenceIdeal.Read
import proofs.«104080_j41480794145043_1_alg».proof.Proof.KernelArray
import proofs.«104080_j41480794145043_1_alg».proof.Proof.ReferenceMean
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the node update of the same edge sums and edge counts: the kernel's result array by
    the blocks-to-array module, the reference's last stage by the reference module, and the two edge stages are
    one term of arguments that agree. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v24_eq, Cert.ReferenceIdeal.MeanValue.result_eq,
    Cert.KernelIdeal.EdgeStage.sums_same, Cert.KernelIdeal.EdgeStage.counts_same, h0, h1, h2, h3, h4]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
